-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x128 : Shape := ⟨3, ![64, 512, 128]⟩
abbrev S64x512x512 : Shape := ⟨3, ![64, 512, 512]⟩
abbrev S512x512 : Shape := ⟨2, ![512, 512]⟩
abbrev S_ : Shape := ⟨0, ![]⟩

class Facts : Prop where
  bcast_S_S64x512x128 : S_.BroadcastsInDim S64x512x128 (![] : Fin 0 → Fin S64x512x128.rank)
  reducesTo_S64x512x128_S_d0_1_2 : S64x512x128.ReducesTo [0, 1, 2] S_
  h_S_ : 0 < S_.numel
  bcast_S_S64x512x512 : S_.BroadcastsInDim S64x512x512 (![] : Fin 0 → Fin S64x512x512.rank)
  reducesTo_S64x512x512_S_d0_1_2 : S64x512x512.ReducesTo [0, 1, 2] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S64x512x128 .f32) (main_arg1 : FVec F S64x512x512 .f32) (main_arg2 : FVec F S512x512 .f32) : IVec S_ 1 :=
  let main_v0 : FVec F S64x512x128 .f32 := Host.absf main_arg0
  let main_cst : FVec F S_ .f32 := constant S_ .f32 0x7F800000#32
  let main_v1 : FVec F S64x512x128 .f32 := broadcastInDim S64x512x128 ![] bcast_S_S64x512x128 main_cst
  let main_v2 : IVec S64x512x128 1 := cmpf .olt main_v0 main_v1
  let main_c : IVec S_ 1 := constantI S_ 1 1#1
  let main_v3 : IVec S_ 1 := (fun x v => Host.reduce IntOp.andi x v reducesTo_S64x512x128_S_d0_1_2 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S64x512x128 : Shape := ⟨3, ![64, 512, 128]⟩
abbrev S64x512x512 : Shape := ⟨3, ![64, 512, 512]⟩
abbrev S512x512 : Shape := ⟨2, ![512, 512]⟩
abbrev S1x512x512 : Shape := ⟨3, ![1, 512, 512]⟩
abbrev S1x512x128 : Shape := ⟨3, ![1, 512, 128]⟩
abbrev S512 : Shape := ⟨1, ![512]⟩
abbrev S512x1 : Shape := ⟨2, ![512, 1]⟩
abbrev S1x512 : Shape := ⟨2, ![1, 512]⟩
abbrev S512x128 : Shape := ⟨2, ![512, 128]⟩

abbrev nBuf : Space → Nat
  | .hbm => 4
  | .vmem => 7
  | .smem => 0
  | _ => 0

abbrev bufTy : (tb : Table) → Fin (tcTables nBuf tb) → BufTy
  | .hbm, ⟨0, _⟩ => ⟨S64x512x128, .f32⟩
  | .hbm, ⟨1, _⟩ => ⟨S64x512x512, .f32⟩
  | .hbm, ⟨2, _⟩ => ⟨S512x512, .f32⟩
  | .hbm, ⟨3, _⟩ => ⟨S64x512x128, .f32⟩
  | .local _ .vmem, ⟨0, _⟩ => ⟨S512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | _, _ => ⟨S64x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  broadcasts_S512x1_S512x512 : S512x1.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  iota_S512x512_d0_w32 : S512x512.Iotas .tc 32 [0]
  iota_S512x512_d1_w32 : S512x512.Iotas .tc 32 [1]
  transposes_S512x1_p1_0_S1x512 : S512x1.Transposes [1, 0] S1x512
  broadcasts_S1x512_S512x512 : S1x512.Broadcasts S512x512
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  bitsLt_bf16_f32 : FTy.bits .bf16 < FTy.bits .f32
  shapeCasts_S512x128_S1x512x128 : S512x128.ShapeCasts S1x512x128
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S64x512x512.size a
  hwx0_1 : ∀ i : grid0.Coords, EltTy.bits .f32 = 32 ∨ (Rect.block (s := S64x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S64x512x128.size a
  hwx0_2 : ∀ i : grid0.Coords, EltTy.bits .f32 = 32 ∨ (Rect.block (s := S64x512x128) S1x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S64x512x128.size a
  hwx0_3 : ∀ i : grid0.Coords, EltTy.bits .f32 = 32 ∨ (Rect.block (s := S64x512x128) S1x512x128.size (cc0_transform_3 i) (hinb0_3 i)).WholeWords (EltTy.packing .f32)

variable [Facts₀]

def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_arg2) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x128 : Shape := ⟨3, ![64, 512, 128]⟩
abbrev S64x512x512 : Shape := ⟨3, ![64, 512, 512]⟩
abbrev S512x512 : Shape := ⟨2, ![512, 512]⟩
abbrev S_ : Shape := ⟨0, ![]⟩
abbrev S512 : Shape := ⟨1, ![512]⟩
abbrev S512x1 : Shape := ⟨2, ![512, 1]⟩
abbrev S1x512x512 : Shape := ⟨3, ![1, 512, 512]⟩
abbrev S64x512 : Shape := ⟨2, ![64, 512]⟩
abbrev S64x512x1 : Shape := ⟨3, ![64, 512, 1]⟩
abbrev S64x1x512 : Shape := ⟨3, ![64, 1, 512]⟩

abbrev nBuf : Space → Nat
  | .hbm => 47
  | .vmem => 0
  | .smem => 0
  | _ => 0

abbrev bufTy : (tb : Table) → Fin (tcTables nBuf tb) → BufTy
  | .hbm, ⟨0, _⟩ => ⟨S64x512x128, .f32⟩
  | .hbm, ⟨1, _⟩ => ⟨S64x512x512, .f32⟩
  | .hbm, ⟨2, _⟩ => ⟨S512x512, .f32⟩
  | .hbm, ⟨3, _⟩ => ⟨S_, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S512x1, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S512x512, .f32⟩
  | .hbm, ⟨16, _⟩ => ⟨S512x512, .f32⟩
  | .hbm, ⟨17, _⟩ => ⟨S1x512x512, .f32⟩
  | .hbm, ⟨18, _⟩ => ⟨S64x512x512, .f32⟩
  | .hbm, ⟨19, _⟩ => ⟨S64x512x512, .f32⟩
  | .hbm, ⟨20, _⟩ => ⟨S512x512, .i32⟩
  | .hbm, ⟨21, _⟩ => ⟨S512x512, .i32⟩
  | .hbm, ⟨22, _⟩ => ⟨S_, .i32⟩
  | .hbm, ⟨23, _⟩ => ⟨S512x512, .i32⟩
  | .hbm, ⟨24, _⟩ => ⟨S512x512, .i32⟩
  | .hbm, ⟨25, _⟩ => ⟨S512x512, .i1⟩
  | .hbm, ⟨26, _⟩ => ⟨S512x512, .f32⟩
  | .hbm, ⟨27, _⟩ => ⟨S1x512x512, .f32⟩
  | .hbm, ⟨28, _⟩ => ⟨S64x512x512, .f32⟩
  | .hbm, ⟨29, _⟩ => ⟨S64x512x512, .f32⟩
  | .hbm, ⟨30, _⟩ => ⟨S_, .f32⟩
  | .hbm, ⟨31, _⟩ => ⟨S64x512, .f32⟩
  | .hbm, ⟨32, _⟩ => ⟨S_, .f32⟩
  | .hbm, ⟨33, _⟩ => ⟨S64x512, .f32⟩
  | .hbm, ⟨34, _⟩ => ⟨S64x512, .i1⟩
  | .hbm, ⟨35, _⟩ => ⟨S64x512, .f32⟩
  | .hbm, ⟨36, _⟩ => ⟨S_, .f32⟩
  | .hbm, ⟨37, _⟩ => ⟨S_, .f32⟩
  | .hbm, ⟨38, _⟩ => ⟨S64x512, .f32⟩
  | .hbm, ⟨39, _⟩ => ⟨S64x512, .f32⟩
  | .hbm, ⟨40, _⟩ => ⟨S64x512x1, .f32⟩
  | .hbm, ⟨41, _⟩ => ⟨S64x512x512, .f32⟩
  | .hbm, ⟨42, _⟩ => ⟨S64x512x512, .f32⟩
  | .hbm, ⟨43, _⟩ => ⟨S64x1x512, .f32⟩
  | .hbm, ⟨44, _⟩ => ⟨S64x512x512, .f32⟩
  | .hbm, ⟨45, _⟩ => ⟨S64x512x512, .f32⟩
  | .hbm, ⟨46, _⟩ => ⟨S64x512x128, .f32⟩
  | _, _ => ⟨S64x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bcast_S512x512_S1x512x512_1_2 : S512x512.BroadcastsInDim S1x512x512 (![1, 2] : Fin 2 → Fin S1x512x512.rank)
  bcast_S1x512x512_S64x512x512_0_1_2 : S1x512x512.BroadcastsInDim S64x512x512 (![0, 1, 2] : Fin 3 → Fin S64x512x512.rank)
  bcast_S_S512x512 : S_.BroadcastsInDim S512x512 (![] : Fin 0 → Fin S512x512.rank)
  reducesTo_S64x512x512_S64x512_d2 : S64x512x512.ReducesTo [2] S64x512
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S64x512x1_S64x512x512_0_1_2 : S64x512x1.BroadcastsInDim S64x512x512 (![0, 1, 2] : Fin 3 → Fin S64x512x512.rank)
  bcast_S64x512_S64x1x512_0_2 : S64x512.BroadcastsInDim S64x1x512 (![0, 2] : Fin 2 → Fin S64x1x512.rank)
  bcast_S64x1x512_S64x512x512_0_1_2 : S64x1x512.BroadcastsInDim S64x512x512 (![0, 1, 2] : Fin 3 → Fin S64x512x512.rank)
  dot_S64x512x512_S64x512x128_S64x512x128_2_1_1_2_0_0_wf : DotDims.WF S64x512x512 S64x512x128 S64x512x128 [2] [1] [1] [2] [0] [0]

variable [Facts₀]

def dot_S64x512x512_S64x512x128_S64x512x128_2_1_1_2_0_0 : DotDims S64x512x512 S64x512x128 S64x512x128 where
  lhsContracting := [2]
  rhsContracting := [1]
  lhsNonContracting := [1]
  rhsNonContracting := [2]
  lhsBatch := [0]
  rhsBatch := [0]
  wf := dot_S64x512x512_S64x512x128_S64x512x128_2_1_1_2_0_0_wf

class Facts : Prop extends Facts₀ where

variable [Facts]
-- ==== Proof.Spec.lean ====
/-
  The mathematics both programs compute, over the extended reals, for one graph of n nodes with a
  feature matrix of F columns.  From a weight matrix w and a mask a:

    softmax of each row of w (the row's maximum subtracted first, the maximum taken from −∞),
    A  = softmax(w) ⊙ a + I,
    d  = the row sums of A,   s = d^(-1/2) where d > 0 and 0 elsewhere,
    Â  = diag(s) · A · diag(s)   (each entry s_r · A_rc · s_c, multiplied in that order),
    the result is Â · x.

  Everything is stated by coordinates (rows and columns as `Fin`), so that each program's reading of
  one entry can be set against it.  The identity matrix is met in two spellings — a select between
  the patterns of 1 and 0 on "row = column", and the comparison bit converted to a float — and both
  are this file's `eye`.
-/
import Idealize.ShloMosaic.PureOps.Ideal.Laws
import Idealize.ShloMosaic.Lib.ValueIdx
import Idealize.ShloMosaic.Lib.IdealHost
import Idealize.ShloMosaic.Lib.StableHlo.Predicate

noncomputable section

open scoped BigOperators

namespace GraphNorm

open Idealize.ShloMosaic

variable {n F : ℕ}

/-- −∞, as the f32 pattern both programs start a row's maximum from. -/
abbrev negInf : EReal := Ideal.ofBits .f32 0xFF800000#32

/-- A row's maximum, from −∞, and once more against −∞ (both programs take that second maximum). -/
def rowMax (w : Fin n → Fin n → EReal) (r : Fin n) : EReal :=
  max negInf ((Finset.univ : Finset (Fin n)).fold max negInf (fun c => w r c))

/-- exp (w_rc − max_r). -/
def expo (w : Fin n → Fin n → EReal) (r c : Fin n) : EReal := Ideal.exp (w r c - rowMax w r)

/-- The softmax of row r at column c. -/
def soft (w : Fin n → Fin n → EReal) (r c : Fin n) : EReal := Ideal.div (expo w r c) (∑ c', expo w r c')

/-- The identity matrix. -/
def eye (r c : Fin n) : EReal := if r = c then 1 else 0

/-- A = softmax(w) ⊙ a + I. -/
def adj (w a : Fin n → Fin n → EReal) (r c : Fin n) : EReal := soft w r c * a r c + eye r c

/-- The degree: a row's sum of A. -/
def deg (w a : Fin n → Fin n → EReal) (r : Fin n) : EReal := ∑ c, adj w a r c

/-- d^(-1/2) where the degree is positive, 0 elsewhere. -/
def dinv (w a : Fin n → Fin n → EReal) (r : Fin n) : EReal :=
  Scalar.select (Ideal.cmp .ogt (deg w a r) 0) (Ideal.rsqrt (deg w a r)) 0

/-- Â_rc = s_r · A_rc · s_c. -/
def adjN (w a : Fin n → Fin n → EReal) (r c : Fin n) : EReal := dinv w a r * adj w a r c * dinv w a c

/-- (Â · x)_rf. -/
def prop (w a : Fin n → Fin n → EReal) (x : Fin n → Fin F → EReal) (r : Fin n) (f : Fin F) : EReal :=
  ∑ c, adjN w a r c * x c f

/-- THE WHOLE RESULT over B graphs: graph b uses the shared weights, its own mask and its own features;
    entry (b, r, f) is (Â_b · x_b)_rf. -/
def batched {B : ℕ} (x : (⟨3, ![B, n, F]⟩ : Shape).Idx → EReal) (a : (⟨3, ![B, n, n]⟩ : Shape).Idx → EReal)
    (w : (⟨2, ![n, n]⟩ : Shape).Idx → EReal) : (⟨3, ![B, n, F]⟩ : Shape).Idx → EReal := fun i =>
  let b : Fin B := i 0
  let r : Fin n := i 1
  let f : Fin F := i 2
  prop (fun r c => w (ValueIdx.ix2 r c)) (fun r c => a (ValueIdx.ix3 b r c)) (fun c f => x (ValueIdx.ix3 b c f)) r f

/-! ## The identity matrix, in the two spellings -/

/-- Two coordinates below 2³² are equal when their 32-bit words are. -/
theorem ofNat_eq_iff {r c : Fin n} (hn : n ≤ 2 ^ 32) : BitVec.ofNat 32 r.val = BitVec.ofNat 32 c.val ↔ r = c := by
  constructor
  · intro h
    have := congrArg BitVec.toNat h
    rw [BitVec.toNat_ofNat, BitVec.toNat_ofNat, Nat.mod_eq_of_lt (lt_of_lt_of_le r.isLt hn),
      Nat.mod_eq_of_lt (lt_of_lt_of_le c.isLt hn)] at this
    exact Fin.ext this
  · rintro rfl; rfl

/-- A select between the patterns of 1 and 0 on the bit "row word = column word". -/
theorem eye_select {r c : Fin n} (hn : n ≤ 2 ^ 32) :
    Scalar.select (IntOp.cmpi .eq (BitVec.ofNat 32 r.val) (BitVec.ofNat 32 c.val))
      (Ideal.ofBits .f32 0x3F800000#32) (Ideal.ofBits .f32 0x00000000#32) = eye r c := by
  unfold Scalar.select eye
  rw [Ideal.ofBits_one_f32, Ideal.ofBits_zero_f32]
  by_cases h : r = c
  · have e : IntOp.cmpi .eq (BitVec.ofNat 32 r.val) (BitVec.ofNat 32 c.val) = (1 : BitVec 1) :=
      (StableHlo.Predicate.cmpi_eq_iff).2 ((ofNat_eq_iff hn).2 h)
    rw [if_pos e, if_pos h]
  · have e : ¬ IntOp.cmpi .eq (BitVec.ofNat 32 r.val) (BitVec.ofNat 32 c.val) = (1 : BitVec 1) :=
      fun e => h ((ofNat_eq_iff hn).1 ((StableHlo.Predicate.cmpi_eq_iff).1 e))
    rw [if_neg e, if_neg h]

/-- The bit "(row word + 0) = column word" read as an unsigned integer. -/
theorem eye_convert {r c : Fin n} (hn : n ≤ 2 ^ 32) :
    (((IntOp.cmpi .eq (IntOp.addi (BitVec.ofNat 32 r.val) 0#32) (BitVec.ofNat 32 c.val)).toNat : ℝ) : EReal) = eye r c := by
  unfold eye
  have h0 : IntOp.addi (BitVec.ofNat 32 r.val) 0#32 = BitVec.ofNat 32 r.val := by
    show BitVec.ofNat 32 r.val + 0#32 = _
    exact BitVec.add_zero _
  rw [h0]
  by_cases h : r = c
  · rw [(StableHlo.Predicate.cmpi_eq_iff).2 ((ofNat_eq_iff hn).2 h), if_pos h]; norm_num
  · rw [ValueIdx.eq_zero_of_ne_one (fun e => h ((ofNat_eq_iff hn).1 ((StableHlo.Predicate.cmpi_eq_iff).1 e))), if_neg h]
    norm_num

end GraphNorm
-- ==== Proof.LibKeepdims.lean ====
/-
  Two layout readings of a kept axis of extent one, for any element type and any extents:
  a vector [a] viewed as a column [a,1] reads its entry i at (i,0); a column [a,1] spread over the
  columns of [a,b] reads its entry (i,0) at every (i,j).  Both name the operand's index by
  coordinates, so that a sum or a product over a row can be rewritten term by term.
-/
import Idealize.ShloMosaic.Lib.Pipeline.Value
import Idealize.ShloMosaic.Lib.ValueIdx

namespace Idealize.ShloMosaic.ValueIdx

open Idealize.ShloMosaic

variable {α : Type}

/-- A vector of `a` entries viewed as an `a × 1` column: entry `(i, u)` is entry `i` of the vector
    (the only value of `u` is 0, and row-major position `i · 1 + 0` is `i`). -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_one, Shape.rowMajor_val_two]
    show i.val = i.val * 1 + u.val
    have := u.isLt; omega)

/-- An `a × 1` column spread over `b` columns: entry `(i, j)` is the column's entry `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.KernelBlock.lean ====
/-
  What the kernel's body computes from one grid point's three blocks, entry by entry, over the
  extended reals.  The blocks are the whole weight matrix (512 × 512), one batch's mask
  (1 × 512 × 512) and one batch's features (1 × 512 × 128).  The body is cut into its stages —
  the row maxima, the shifted exponentials, the softmax, A = softmax ⊙ mask + I, the degrees and
  their inverse square roots, the scaled matrix Â — each a vector of the block's shape, and each is
  read at an entry as the specification's function of the same name (`GraphNorm`).  The last stage, a
  matrix product into a zero accumulator, is then the sum over the contracted column:
  entry (r, f) of the block's result is Σ_c Â_rc · x_cf.  Narrowing to bf16 is the identity on the
  extended reals, so the product's operands are the f32 values themselves.
-/
import proofs.«176209_j73254962201099_1_alg».proof.Proof.Gen.KernelIdeal.Skeleton
import proofs.«176209_j73254962201099_1_alg».proof.Proof.Spec
import proofs.«176209_j73254962201099_1_alg».proof.Proof.LibKeepdims
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx GraphNorm

variable (P0 : FVec Ideal S512x512 .f32) (P1 : FVec Ideal S1x512x512 .f32) (P2 : FVec Ideal S1x512x128 .f32)

/-- The weight block by coordinates. -/
abbrev W : Fin 512 → Fin 512 → EReal := fun r c => P0 (ix2 r c)
/-- The mask block by coordinates (its leading axis has the one index 0). -/
abbrev M : Fin 512 → Fin 512 → EReal := fun r c => P1 (ix3 (0 : Fin 1) r c)
/-- The feature block by coordinates. -/
abbrev X : Fin 512 → Fin 128 → EReal := fun c f => P2 (ix3 (0 : Fin 1) c f)

/-! ## Reading a row reduction and a kept column -/

/-- Row r with column c put back on the reduced axis is the entry (r, c). -/
theorem lift_row (h : S512x512.Reduces [1] S512) (r c : Fin 512) : h.lift (ix1 r) c = ix2 r c :=
  funext fun a => Fin.ext (by match a with | ⟨0, _⟩ => rfl | ⟨1, _⟩ => rfl)

/-- A sum over axis 1 of a 512 × 512 vector, at row r, is the sum of that row's entries. -/
theorem rowSum_apply (V : FVec Ideal S512x512 .f32) (h : S512x512.Reduces [1] S512) (hφ : FKind.Formats .f32)
    (hacc : (0x00000000#32 : BitVec 32) = FKind.add.neutral .f32 hφ) (r : Fin 512) :
    multiReduction .add [1] S512 V 0x00000000#32 h hφ hacc (ix1 r) = ∑ c : Fin 512, V (ix2 r c) :=
  (Ideal.multiReduction_add_single V _ h hφ hacc (ix1 r)).trans
    (Finset.sum_congr rfl fun c _ => congrArg V (lift_row h r c))

/-- A maximum over axis 1 from −∞, at row r, is the fold of max over that row's entries. -/
theorem rowMaxFold_apply (V : FVec Ideal S512x512 .f32) (h : S512x512.Reduces [1] S512) (hφ : FKind.Formats .f32)
    (hacc : (0xFF800000#32 : BitVec 32) = FKind.maximumf.neutral .f32 hφ) (r : Fin 512) :
    multiReduction .maximumf [1] S512 V 0xFF800000#32 h hφ hacc (ix1 r)
      = (Finset.univ : Finset (Fin 512)).fold max negInf (fun c => V (ix2 r c)) :=
  (Ideal.multiReduction_maximumf_single V _ h hφ hacc (ix1 r)).trans
    (congrArg ((Finset.univ : Finset (Fin 512)).fold max negInf) (funext fun c => congrArg V (lift_row h r c)))

/-- A vector of 512 row values, kept as a column and spread over the 512 columns. -/
def col (v : FVec Ideal S512 .f32) : FVec Ideal S512x512 .f32 :=
  broadcastTo S512x512 (shapeCast S512x1 v shapeCasts_S512_S512x1) broadcasts_S512x1_S512x512

theorem col_apply (v : FVec Ideal S512 .f32) (r c : Fin 512) : col v (ix2 r c) = v (ix1 r) :=
  (broadcastTo_a1_ab_apply _ _ r c).trans (shapeCast_a_a1_apply v _ r 0)

/-! ## The stages -/

/-- The row maxima. -/
def kMax : FVec Ideal S512 .f32 :=
  maximumf (broadcast S512 (Scalar.ofBits .f32 0xFF800000#32))
    (multiReduction .maximumf [1] S512 P0 0xFF800000#32 reduces_S512x512_S512 (.inl rfl) rfl)

theorem kMax_apply (r : Fin 512) : kMax P0 (ix1 r) = rowMax (W P0) r :=
  congrArg (max negInf) (rowMaxFold_apply P0 _ _ _ r)

/-- exp (w − row maximum). -/
def kExp : FVec Ideal S512x512 .f32 := exp (subf P0 (col (kMax P0)))

theorem kExp_apply (r c : Fin 512) : kExp P0 (ix2 r c) = expo (W P0) r c := by
  show Ideal.exp (P0 (ix2 r c) - col (kMax P0) (ix2 r c)) = _
  rw [col_apply, kMax_apply]; rfl

/-- The softmax of each row. -/
def kSoft : FVec Ideal S512x512 .f32 :=
  divf (kExp P0) (col (multiReduction .add [1] S512 (kExp P0) 0x00000000#32 reduces_S512x512_S512 (.inl rfl) rfl))

theorem kSoft_apply (r c : Fin 512) : kSoft P0 (ix2 r c) = soft (W P0) r c := by
  show Ideal.div (kExp P0 (ix2 r c)) (col _ (ix2 r c)) = _
  rw [col_apply, kExp_apply]
  unfold soft
  exact congrArg (Ideal.div _) ((rowSum_apply (kExp P0) _ _ _ r).trans (Finset.sum_congr rfl fun c' _ => kExp_apply P0 r c'))

/-- The identity matrix as the body makes it: 1 where the row's number is the column's, else 0. -/
def kEye : FVec Ideal S512x512 .f32 :=
  select (cmpi .eq (iota .tc S512x512 32 [0] iota_S512x512_d0_w32) (iota .tc S512x512 32 [1] iota_S512x512_d1_w32))
    (broadcast S512x512 (Scalar.ofBits .f32 0x3F800000#32)) (broadcast S512x512 (Scalar.ofBits .f32 0x00000000#32))

theorem kEye_apply (r c : Fin 512) : kEye (ix2 r c) = eye r c := by
  show Scalar.select (IntOp.cmpi .eq (iota .tc S512x512 32 [0] iota_S512x512_d0_w32 (ix2 r c))
      (iota .tc S512x512 32 [1] iota_S512x512_d1_w32 (ix2 r c)))
    (Ideal.ofBits .f32 0x3F800000#32) (Ideal.ofBits .f32 0x00000000#32) = _
  rw [iota_single_apply, iota_single_apply]
  exact eye_select (by norm_num)

/-- A = softmax ⊙ mask + I. -/
def kAdj : FVec Ideal S512x512 .f32 :=
  addf (mulf (kSoft P0) (shapeCast S512x512 P1 shapeCasts_S1x512x512_S512x512)) kEye

theorem kAdj_apply (r c : Fin 512) : kAdj P0 P1 (ix2 r c) = adj (W P0) (M P1) r c := by
  show kSoft P0 (ix2 r c) * shapeCast S512x512 P1 shapeCasts_S1x512x512_S512x512 (ix2 r c) + kEye (ix2 r c) = _
  rw [kSoft_apply, kEye_apply, shapeCast_1ab_ab_apply]; rfl

/-- The degrees, kept as a column. -/
def kDeg : FVec Ideal S512x1 .f32 :=
  shapeCast S512x1 (multiReduction .add [1] S512 (kAdj P0 P1) 0x00000000#32 reduces_S512x512_S512 (.inl rfl) rfl)
    shapeCasts_S512_S512x1

theorem kDeg_apply (r : Fin 512) (u : Fin 1) : kDeg P0 P1 (ix2 r u) = deg (W P0) (M P1) r := by
  unfold kDeg
  rw [shapeCast_a_a1_apply]
  exact (rowSum_apply (kAdj P0 P1) _ _ _ r).trans (Finset.sum_congr rfl fun c _ => kAdj_apply P0 P1 r c)

/-- The inverse square roots of the positive degrees, 0 elsewhere, as a column. -/
def kDinv : FVec Ideal S512x1 .f32 :=
  select (cmpf .ogt (kDeg P0 P1) (broadcast S512x1 (Scalar.ofBits .f32 0x00000000#32))) (rsqrt (kDeg P0 P1))
    (broadcast S512x1 (Scalar.ofBits .f32 0x00000000#32))

theorem kDinv_apply (r : Fin 512) (u : Fin 1) : kDinv P0 P1 (ix2 r u) = dinv (W P0) (M P1) r := by
  show Scalar.select (Ideal.cmp .ogt (kDeg P0 P1 (ix2 r u)) (Ideal.ofBits .f32 0x00000000#32))
    (Ideal.rsqrt (kDeg P0 P1 (ix2 r u))) (Ideal.ofBits .f32 0x00000000#32) = _
  rw [kDeg_apply, Ideal.ofBits_zero_f32]; rfl

/-- Â: the rows scaled by the column of inverse square roots, then the columns by its transpose. -/
def kAdjN : FVec Ideal S512x512 .f32 :=
  mulf (mulf (broadcastTo S512x512 (kDinv P0 P1) broadcasts_S512x1_S512x512) (kAdj P0 P1))
    (broadcastTo S512x512 (transpose S1x512 [1, 0] (kDinv P0 P1) transposes_S512x1_p1_0_S1x512) broadcasts_S1x512_S512x512)

theorem kAdjN_apply (r c : Fin 512) : kAdjN P0 P1 (ix2 r c) = adjN (W P0) (M P1) r c := by
  show broadcastTo S512x512 (kDinv P0 P1) broadcasts_S512x1_S512x512 (ix2 r c) * kAdj P0 P1 (ix2 r c)
    * broadcastTo S512x512 (transpose S1x512 [1, 0] (kDinv P0 P1) transposes_S512x1_p1_0_S1x512) broadcasts_S1x512_S512x512 (ix2 r c) = _
  rw [broadcastTo_a1_ab_apply, broadcastTo_1b_ab_apply, transpose_ix2_apply, kDinv_apply, kDinv_apply, kAdj_apply]; rfl

/-! ## The payload is the stages, and its product read at an entry -/

/-- The body's pure value is the matrix product of Â and the features, both narrowed to bf16, into zero. -/
theorem pay2_eq : k0_pay2 P0 P1 P2
    = matmul dot_S512x512_S512x128_S512x128_1_0_0_1_n_n none
        (truncf .bf16 (kAdjN P0 P1) bitsLt_bf16_f32)
        (truncf .bf16 (shapeCast S512x128 P2 shapeCasts_S1x512x128_S512x128) bitsLt_bf16_f32)
        (constant S512x128 .f32 0x00000000#32) := rfl

end Cert.KernelIdeal.Block

end
-- ==== Proof.KernelProduct.lean ====
/-
  The last stage of the kernel's body read at an entry.  The 512 × 512 by 512 × 128 matrix product
  into a zero accumulator is, at (r, f), the sum over the one contracted coordinate c of the left
  operand at (r, c) times the right at (c, f); with the left operand Â and the right the feature
  block this is the specification's (Â · x)_rf.
-/
import proofs.«176209_j73254962201099_1_alg».proof.Proof.KernelBlock

noncomputable section

open scoped BigOperators

namespace Cert.KernelIdeal.Block

open Cert.KernelIdeal Cert.KernelIdeal.Gen Idealize.ShloMosaic Idealize.ShloMosaic.ValueIdx GraphNorm

/-! ## Where the product's operands are read: the row of the left, the column of the right, the contracted coordinate -/

theorem lhs_prod_0 (i : S512x128.Idx) (q : dot_S512x512_S512x128_S512x128_1_0_0_1_n_n.contr.Idx) :
    (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
theorem lhs_prod_1 (i : S512x128.Idx) (q : dot_S512x512_S512x128_S512x128_1_0_0_1_n_n.contr.Idx) :
    (dot_S512x512_S512x128_S512x128_1_0_0_1_n_n.lhsIdx i q 1).val = (q ⟨0, by decide⟩).val :=
  dot_S512x512_S512x128_S512x128_1_0_0_1_n_n.lhsIdx_val_of_single rfl i q
theorem rhs_prod_0 (i : S512x128.Idx) (q : dot_S512x512_S512x128_S512x128_1_0_0_1_n_n.contr.Idx) :
    (dot_S512x512_S512x128_S512x128_1_0_0_1_n_n.rhsIdx i q 0).val = (q ⟨0, by decide⟩).val :=
  dot_S512x512_S512x128_S512x128_1_0_0_1_n_n.rhsIdx_val_of_single rfl i q
theorem rhs_prod_1 (i : S512x128.Idx) (q : dot_S512x512_S512x128_S512x128_1_0_0_1_n_n.contr.Idx) :
    (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl

/-- The product into zero at (r, f): Σ_c L_rc · R_cf. -/
theorem prod_apply {φ₁ φ₂ : FTy} (L : FVec Ideal S512x512 φ₁) (R : FVec Ideal S512x128 φ₂) (r : Fin 512) (f : Fin 128) :
    matmul dot_S512x512_S512x128_S512x128_1_0_0_1_n_n none L R (constant S512x128 .f32 0x00000000#32) (ix2 r f)
      = ∑ c : Fin 512, L (ix2 r c) * R (ix2 c f) := by
  simp only [matmul]
  rw [Ideal.matmul_constant_zero_apply, ← Equiv.sum_comp (contrEquiv1 dot_S512x512_S512x128_S512x128_1_0_0_1_n_n 512 rfl rfl).symm]
  refine Finset.sum_congr rfl fun k _ => ?_
  have hk := contrEquiv1_symm_val dot_S512x512_S512x128_S512x128_1_0_0_1_n_n 512 rfl rfl k
  have el : dot_S512x512_S512x128_S512x128_1_0_0_1_n_n.lhsIdx (ix2 r f) ((contrEquiv1 dot_S512x512_S512x128_S512x128_1_0_0_1_n_n 512 rfl rfl).symm k) = ix2 r k := funext fun a => Fin.ext (by
    match a with
    | ⟨0, _⟩ => exact lhs_prod_0 _ _
    | ⟨1, _⟩ => exact (lhs_prod_1 _ _).trans hk)
  have er : dot_S512x512_S512x128_S512x128_1_0_0_1_n_n.rhsIdx (ix2 r f) ((contrEquiv1 dot_S512x512_S512x128_S512x128_1_0_0_1_n_n 512 rfl rfl).symm k) = ix2 k f := funext fun a => Fin.ext (by
    match a with
    | ⟨0, _⟩ => exact (rhs_prod_0 _ _).trans hk
    | ⟨1, _⟩ => exact rhs_prod_1 _ _)
  rw [el, er]

variable (P0 : FVec Ideal S512x512 .f32) (P1 : FVec Ideal S1x512x512 .f32) (P2 : FVec Ideal S1x512x128 .f32)

/-- THE BODY'S VALUE at (r, f) is (Â · x)_rf of the three blocks. -/
theorem pay2_apply (r : Fin 512) (f : Fin 128) :
    k0_pay2 (F := Ideal) P0 P1 P2 (ix2 r f) = prop (W P0) (M P1) (X P2) r f := by
  rw [pay2_eq, prod_apply]
  unfold prop
  refine Finset.sum_congr rfl fun c _ => ?_
  show kAdjN P0 P1 (ix2 r c) * shapeCast S512x128 P2 shapeCasts_S1x512x128_S512x128 (ix2 c f) = _
  rw [kAdjN_apply, shapeCast_1ab_ab_apply]

end Cert.KernelIdeal.Block

end
-- ==== Proof.KernelValue.lean ====
/-
  From the kernel's blocks to its whole result array.  The grid has one point per batch: point t
  stages the whole weight matrix, batch t's mask and batch t's features, and writes back batch t's
  512 × 128 block of the result.  So what point t writes back is block t of ONE function of the three
  argument arrays — the specification's batched (Â_b · x_b)_rf — the 64 blocks tile the result array,
  and after the run the array IS that function.
-/
import proofs.«176209_j73254962201099_1_alg».proof.Proof.Gen.KernelIdeal.Value
import proofs.«176209_j73254962201099_1_alg».proof.Proof.KernelProduct

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.ValueIdx GraphNorm
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output block, at block entry y = (0, r, f), from ANY three blocks: (Â · x)_rf of them. -/
theorem block_eq (x0 : Vec Ideal S512x512 .f32) (x1 : Vec Ideal S1x512x512 .f32) (x2 : Vec Ideal S1x512x128 .f32)
    (y : S1x512x128.Idx) :
    out0_3 x0 x1 x2 y = prop (Block.W x0) (Block.M x1) (Block.X x2) (y 1) (y 2) := by
  unfold out0_3
  rw [Value.canon3_eq]
  show k0_pay2 (View.ld x0 r0_0) (View.ld x1 r0_1) (View.ld x2 r0_2) (ix3_0 y) = _
  rw [View.ld_unit_zero (S := S512x512) hz2, View.ld_unit_zero (S := S1x512x512) hz3, View.ld_unit_zero (S := S1x512x128) hz3]
  have e : ix3_0 y = ix2 (y 1) (y 2) := funext fun a => Fin.ext (by match a with | ⟨0, _⟩ => rfl | ⟨1, _⟩ => rfl)
  rw [e]
  exact Block.pay2_apply x0 x1 x2 (y 1) (y 2)

/-- The printed index maps, decided over the 64 grid points: the weights' block index is (0, 0) at every point; the
    mask's, the features' and the result's are (t, 0, 0). -/
theorem idx_facts : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The batch a grid point works on. -/
def bat (t : Fin cfg0.N) : Fin 64 := ⟨t.val, t.isLt⟩

/-- The weights' block at any point is the whole weight matrix. -/
theorem read0 (c : Dev nD) (t : Fin cfg0.N) (r k : Fin 512) :
    iblk m c 0 t (ix2 r k) = V m c main_arg2 (ix2 r k) := by
  obtain ⟨e0, e1, -⟩ := idx_facts t
  show V m c main_arg2 (((cfg0.win 0).blk t).view.emb (ix2 r k)) = V m c main_arg2 (ix2 r k)
  refine congrArg (V m c main_arg2) (funext fun a => Fin.ext ?_)
  match a with
  | ⟨0, _⟩ => show win0_0.index t (0 : Fin 2) * 512 + 1 * r.val = r.val; omega
  | ⟨1, _⟩ => show win0_0.index t (1 : Fin 2) * 512 + 1 * k.val = k.val; omega

/-- The mask's block at point t is batch t's mask. -/
theorem read1 (c : Dev nD) (t : Fin cfg0.N) (r k : Fin 512) :
    iblk m c 1 t (ix3 (0 : Fin 1) r k) = V m c main_arg1 (ix3 (bat t) r k) := by
  obtain ⟨-, -, e0, e1, e2, -⟩ := idx_facts t
  show V m c main_arg1 (((cfg0.win 1).blk t).view.emb (ix3 (0 : Fin 1) r k)) = V m c main_arg1 (ix3 (bat t) r k)
  refine congrArg (V m c main_arg1) (funext fun a => Fin.ext ?_)
  match a with
  | ⟨0, _⟩ => show win0_1.index t (0 : Fin 3) * 1 + 1 * 0 = t.val; omega
  | ⟨1, _⟩ => show win0_1.index t (1 : Fin 3) * 512 + 1 * r.val = r.val; omega
  | ⟨2, _⟩ => show win0_1.index t (2 : Fin 3) * 512 + 1 * k.val = k.val; omega

/-- The features' block at point t is batch t's features. -/
theorem read2 (c : Dev nD) (t : Fin cfg0.N) (k : Fin 512) (f : Fin 128) :
    iblk m c 2 t (ix3 (0 : Fin 1) k f) = V m c main_arg0 (ix3 (bat t) k f) := by
  obtain ⟨-, -, -, -, -, e0, e1, e2, -⟩ := idx_facts t
  show V m c main_arg0 (((cfg0.win 2).blk t).view.emb (ix3 (0 : Fin 1) k f)) = V m c main_arg0 (ix3 (bat t) k f)
  refine congrArg (V m c main_arg0) (funext fun a => Fin.ext ?_)
  match a with
  | ⟨0, _⟩ => show win0_2.index t (0 : Fin 3) * 1 + 1 * 0 = t.val; omega
  | ⟨1, _⟩ => show win0_2.index t (1 : Fin 3) * 512 + 1 * k.val = k.val; omega
  | ⟨2, _⟩ => show win0_2.index t (2 : Fin 3) * 128 + 1 * f.val = f.val; omega

/-- Entry y = (0, r, f) of the result's block at point t sits at (t, r, f) of the result array. -/
theorem emb3 (t : Fin cfg0.N) (y : S1x512x128.Idx) :
    ((cfg0.win 3).blk t).view.emb y = (ix3 (bat t) (y 1) (y 2) : S64x512x128.Idx) := by
  obtain ⟨-, -, -, -, -, -, -, -, e0, e1, e2⟩ := idx_facts t
  funext a; apply Fin.ext
  have h0 : (y 0).val < 1 := (y 0).isLt
  match a with
  | ⟨0, _⟩ => show win0_3.index t (0 : Fin 3) * 1 + 1 * (y 0).val = t.val; omega
  | ⟨1, _⟩ => show win0_3.index t (1 : Fin 3) * 512 + 1 * (y 1).val = (y 1).val; omega
  | ⟨2, _⟩ => show win0_3.index t (2 : Fin 3) * 128 + 1 * (y 2).val = (y 2).val; omega

/-- The result array as one function of the argument arrays as the region finds them. -/
abbrev Gk (c : Dev nD) : S64x512x128.Idx → EReal :=
  batched (V m c main_arg0) (V m c main_arg1) (V m c main_arg2)

/-- WHAT POINT t WRITES BACK is block t of that function. -/
theorem flushed_eq (c : Dev nD) (t : Fin cfg0.N) :
    (dats m 0 c).flushed 3 t = ((cfg0.win 3).blk t).view.read (Elt Ideal) (Gk m c) := by
  rw [Value.flushed3]
  funext y
  show out0_3 (iblk m c 0 t) (iblk m c 1 t) (iblk m c 2 t) y = Gk m c (((cfg0.win 3).blk t).view.emb y)
  rw [emb3]
  have h0 : Block.W (iblk m c 0 t) = fun r k => V m c main_arg2 (ix2 r k) :=
    funext fun r => funext fun k => read0 m c t r k
  have h1 : Block.M (iblk m c 1 t) = fun r k => V m c main_arg1 (ix3 (bat t) r k) :=
    funext fun r => funext fun k => read1 m c t r k
  have h2 : Block.X (iblk m c 2 t) = fun k f => V m c main_arg0 (ix3 (bat t) k f) :=
    funext fun k => funext fun f => read2 m c t k f
  refine (block_eq (iblk m c 0 t) (iblk m c 1 t) (iblk m c 2 t) y).trans ?_
  rw [h0, h1, h2]
  rfl

/-- An index of the result array is in point t's block iff each coordinate is in the block's range on its axis. -/
theorem mem_blk (t : Fin cfg0.N) (i : S64x512x128.Idx) :
    i ∈ ((cfg0.win 3).blk t).view.set ↔ ∀ a : Fin 3, win0_3.index t a * S1x512x128.size a ≤ (i a).val ∧ (i a).val < win0_3.index t a * S1x512x128.size a + S1x512x128.size a := by
  show i ∈ ((View.whole main_v0).slice (win0_3.rect t)).set ↔ _
  rw [View.set_slice_whole, Rect.mem_set_unit]
  exact Iff.rfl

/-- Every entry (b, r, f) of the result array is in the block of the point that works on batch b. -/
theorem cover (i : S64x512x128.Idx) :
    ∃ t : Fin cfg0.N, (cfg0.win 3).flush t = true ∧ i ∈ ((cfg0.win 3).blk t).view.set := by
  have hi0 : (i 0).val < 64 := (i 0).isLt
  have hi1 : (i 1).val < 512 := (i 1).isLt
  have hi2 : (i 2).val < 128 := (i 2).isLt
  refine ⟨⟨(i 0).val, hi0⟩, flush0_3 _, ?_⟩
  obtain ⟨-, -, -, -, -, -, -, -, e0, e1, e2⟩ := idx_facts ⟨(i 0).val, hi0⟩
  have e0 : win0_3.index ⟨(i 0).val, hi0⟩ (0 : Fin 3) = (i 0).val := e0
  rw [mem_blk]
  intro a
  match a with
  | ⟨0, _⟩ => show win0_3.index ⟨(i 0).val, hi0⟩ (0 : Fin 3) * 1 ≤ (i 0).val ∧ (i 0).val < win0_3.index ⟨(i 0).val, hi0⟩ (0 : Fin 3) * 1 + 1; rw [e0]; omega
  | ⟨1, _⟩ => show win0_3.index ⟨(i 0).val, hi0⟩ (1 : Fin 3) * 512 ≤ (i 1).val ∧ (i 1).val < win0_3.index ⟨(i 0).val, hi0⟩ (1 : Fin 3) * 512 + 512; rw [e1]; omega
  | ⟨2, _⟩ => show win0_3.index ⟨(i 0).val, hi0⟩ (2 : Fin 3) * 128 ≤ (i 2).val ∧ (i 2).val < win0_3.index ⟨(i 0).val, hi0⟩ (2 : Fin 3) * 128 + 128; rw [e2]; omega

/-- THE RESULT ARRAY after the run is the batched function of the arguments as launched. -/
theorem final (c : Dev nD) : (dats m 0 c).arrAt 3 cfg0.N
    = batched (m ((c : Thread nD τ).loc main_arg0)) (m ((c : Thread nD τ).loc main_arg1)) (m ((c : Thread nD τ).loc main_arg2)) :=
  (dats m 0 c).arrAt_eq_of_cover 3 (Gk m c) (fun t _ => flushed_eq m c t) cover

/-- The kernel's run with its result named. -/
theorem run : θ_run defs (onTc (τ := τ) (main (F := Ideal))) ⟨m, fun _ => 0, ρ⟩ fun r => ∀ c : Dev nD,
      r.2.mem ((c : Thread nD τ).loc main_v0)
        = batched (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefValue.lean ====
/-
  What the reference computes, entry by entry, over the extended reals.  Its stages are read one
  operation at a time: the softmax of the weights' rows (maximum from −∞, shifted exponentials, their
  row sums from 0, the quotient), the batch's mask multiplied in, the identity added (the comparison
  "row = column" converted to a float), the degrees (sums over the last axis, from 0), their inverse
  square roots where positive and 0 elsewhere, the two scalings s_r · A_rc · s_c, and the batched
  product with the features.  Each stage is the specification's function of the same name
  (`GraphNorm`), so entry (b, r, f) of the result is (Â_b · x_b)_rf.
-/
import proofs.«176209_j73254962201099_1_alg».proof.Proof.Gen.ReferenceIdeal.Read
import proofs.«176209_j73254962201099_1_alg».proof.Proof.Spec
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx GraphNorm

variable (x0 : FVec Ideal S64x512x128 .f32) (x1 : FVec Ideal S64x512x512 .f32) (x2 : FVec Ideal S512x512 .f32)

/-- The weights by coordinates. -/
abbrev W : Fin 512 → Fin 512 → EReal := fun r c => x2 (ix2 r c)
/-- Batch b's mask by coordinates. -/
abbrev M (b : Fin 64) : Fin 512 → Fin 512 → EReal := fun r c => x1 (ix3 b r c)
/-- Batch b's features by coordinates. -/
abbrev X (b : Fin 64) : Fin 512 → Fin 128 → EReal := fun c f => x0 (ix3 b c f)

/-- Row r with column c put back on the reduced axis is the entry (r, c). -/
theorem lift_row (h : S512x512.Reduces [1] S512) (r c : Fin 512) : h.lift (ix1 r) c = ix2 r c :=
  funext fun a => Fin.ext (by match a with | ⟨0, _⟩ => rfl | ⟨1, _⟩ => rfl)

/-- The row maxima. -/
theorem ref_max (r : Fin 512) : val_main_v2 (F := Ideal) x2 (ix1 r) = rowMax (W x2) r := by
  rw [val_main_v2_apply, val_main_v1_apply, val_main_cst_0_apply]
  unfold val_main_v0
  rw [Host.reduce_eq_fold_single FloatOps.maximumf x2 _ reducesTo_S512x512_S512_d1 (by decide) h_S_ (ix1 r)]
  exact congrArg (max negInf) (congrArg ((Finset.univ : Finset (Fin 512)).fold max negInf)
    (funext fun c => congrArg x2 (lift_row _ r c)))

/-- exp (w − row maximum). -/
theorem ref_exp (r c : Fin 512) : val_main_v6 (F := Ideal) x2 (ix2 r c) = expo (W x2) r c := by
  have e : idx_main_v3 (idx_main_v4 (ix2 r c)) = ix1 r := funext fun a => Fin.ext (by match a with | ⟨0, _⟩ => rfl)
  rw [val_main_v6_apply, val_main_v5_apply, val_main_v4_apply, val_main_v3_apply, e, ref_max]; rfl

/-- The softmax. -/
theorem ref_soft (r c : Fin 512) : val_main_v10 (F := Ideal) x2 (ix2 r c) = soft (W x2) r c := by
  have e : ∀ k : Fin 512, idx_main_v7 (idx_main_v8 (idx_main_v9 (ix2 r c))) k = ix2 r k := fun k =>
    funext fun a => Fin.ext (by match a with | ⟨0, _⟩ => rfl | ⟨1, _⟩ => rfl)
  rw [val_main_v10_apply, val_main_v9_apply, val_main_v8_apply, val_main_v7_apply, val_main_cst_1_apply, ref_exp]
  simp only [e, ref_exp]
  show Ideal.div _ (Ideal.ofBits .f32 0x00000000#32 + _) = _
  rw [Ideal.ofBits_zero_f32, zero_add]; rfl

/-- The identity matrix. -/
theorem ref_eye (r c : Fin 512) : val_main_v19 (F := Ideal) (ix2 r c) = eye r c := by
  rw [val_main_v19_apply, val_main_v18_apply, val_main_v17_apply, val_main_v14_apply, val_main_v16_apply,
    val_main_c_apply, val_main_v15_apply]
  exact eye_convert (by norm_num)

/-- A = softmax ⊙ mask + I, batch by batch. -/
theorem ref_adj (b : Fin 64) (r c : Fin 512) : val_main_v22 (F := Ideal) x1 x2 (ix3 b r c) = adj (W x2) (M x1 b) r c := by
  have e1 : idx_main_v11 (idx_main_v12 (ix3 b r c)) = ix2 r c :=
    funext fun a => Fin.ext (by match a with | ⟨0, _⟩ => rfl | ⟨1, _⟩ => rfl)
  have e2 : idx_main_v20 (idx_main_v21 (ix3 b r c)) = ix2 r c :=
    funext fun a => Fin.ext (by match a with | ⟨0, _⟩ => rfl | ⟨1, _⟩ => rfl)
  rw [val_main_v22_apply, val_main_v13_apply, val_main_v12_apply, val_main_v11_apply, val_main_v21_apply,
    val_main_v20_apply, e1, e2, ref_soft, ref_eye]; rfl

/-- The degrees. -/
theorem ref_deg (b : Fin 64) (r : Fin 512) : val_main_v23 (F := Ideal) x1 x2 (ix2 b r) = deg (W x2) (M x1 b) r := by
  have e : ∀ k : Fin 512, idx_main_v23 (ix2 b r) k = ix3 b r k := fun k =>
    funext fun a => Fin.ext (by match a with | ⟨0, _⟩ => rfl | ⟨1, _⟩ => rfl | ⟨2, _⟩ => rfl)
  rw [val_main_v23_apply, val_main_cst_2_apply]
  simp only [e, ref_adj]
  show Ideal.ofBits .f32 0x00000000#32 + _ = _
  rw [Ideal.ofBits_zero_f32, zero_add]; rfl

/-- The inverse square roots of the positive degrees, 0 elsewhere. -/
theorem ref_dinv (b : Fin 64) (r : Fin 512) : val_main_v27 (F := Ideal) x1 x2 (ix2 b r) = dinv (W x2) (M x1 b) r := by
  rw [val_main_v27_apply, val_main_v25_apply, val_main_v26_apply, val_main_v24_apply, val_main_cst_3_apply,
    val_main_call0_v1_apply, val_main_call0_v0_apply, val_main_cst_4_apply, ref_deg]
  show Scalar.select (Ideal.cmp .ogt _ (Ideal.ofBits .f32 0x00000000#32)) (Ideal.rsqrt _) (Ideal.ofBits .f32 0x00000000#32) = _
  rw [Ideal.ofBits_zero_f32]; rfl

/-- Â. -/
theorem ref_adjN (b : Fin 64) (r c : Fin 512) : val_main_v33 (F := Ideal) x1 x2 (ix3 b r c) = adjN (W x2) (M x1 b) r c := by
  have e1 : idx_main_v28 (idx_main_v29 (ix3 b r c)) = ix2 b r :=
    funext fun a => Fin.ext (by match a with | ⟨0, _⟩ => rfl | ⟨1, _⟩ => rfl)
  have e2 : idx_main_v31 (idx_main_v32 (ix3 b r c)) = ix2 b c :=
    funext fun a => Fin.ext (by match a with | ⟨0, _⟩ => rfl | ⟨1, _⟩ => rfl)
  rw [val_main_v33_apply, val_main_v30_apply, val_main_v29_apply, val_main_v28_apply, val_main_v32_apply,
    val_main_v31_apply, e1, e2, ref_dinv, ref_dinv, ref_adj]; rfl

/-- THE REFERENCE'S RESULT is the specification's batched function of its three arguments. -/
theorem ref_eq : val_main_v34 (F := Ideal) x0 x1 x2 = batched x0 x1 x2 := by
  funext i
  obtain ⟨b, r, f, rfl⟩ : ∃ (b : Fin 64) (r : Fin 512) (f : Fin 128), i = ix3 b r f := ⟨i 0, i 1, i 2, eq_ix3 i⟩
  have el : ∀ k : Fin 512, lidx_main_v34 (ix3 b r f) k = ix3 b r k := fun k =>
    funext fun a => Fin.ext (by match a with | ⟨0, _⟩ => rfl | ⟨1, _⟩ => rfl | ⟨2, _⟩ => rfl)
  have er : ∀ k : Fin 512, ridx_main_v34 (ix3 b r f) k = ix3 b k f := fun k =>
    funext fun a => Fin.ext (by match a with | ⟨0, _⟩ => rfl | ⟨1, _⟩ => rfl | ⟨2, _⟩ => rfl)
  rw [val_main_v34_apply]
  simp only [el, er, ref_adjN]
  rfl

end Cert.ReferenceIdeal.RefValue

end
-- ==== Proof.lean ====
/-
  The certificate: the Pallas kernel — one grid point per batch, each computing the softmax of the
  shared weight matrix, masking it with the batch's mask, adding the identity, scaling rows and columns
  by the inverse square roots of the row sums and multiplying by the batch's features — against the jnp
  reference that does the same with whole-array operations.

  Over the extended reals the two agree operation by operation: a change of float format is the
  identity, the kernel's matrix product into a zero accumulator and the reference's batched
  dot_general are the same sums, and both take row maxima, row sums, the quotient, the comparison with
  zero and the inverse square root by the same functions.  No law of arithmetic is needed beyond
  0 + s = s for the sums the reference starts from 0, so the precondition (finite inputs) is not used.
  Both sides are read entry by entry as ONE function of the three argument arrays
  (`GraphNorm.batched`): the kernel through what each grid point writes back and the tiling of the
  result by the 64 blocks, the reference through its operations one at a time.

  The three frames are the generated runs; the idealization rewrote nothing, so `preserves` is trivial.
-/
import proofs.«176209_j73254962201099_1_alg».proof.Defs
import proofs.«176209_j73254962201099_1_alg».proof.Proof.Gen.Kernel
import proofs.«176209_j73254962201099_1_alg».proof.Proof.Gen.Kernel.Skeleton
import proofs.«176209_j73254962201099_1_alg».proof.Proof.Gen.Kernel.Launch
import proofs.«176209_j73254962201099_1_alg».proof.Proof.Gen.Kernel.Points
import proofs.«176209_j73254962201099_1_alg».proof.Proof.Gen.Kernel.Frame
import proofs.«176209_j73254962201099_1_alg».proof.Proof.Gen.KernelIdeal
import proofs.«176209_j73254962201099_1_alg».proof.Proof.Gen.KernelIdeal.Skeleton
import proofs.«176209_j73254962201099_1_alg».proof.Proof.Gen.KernelIdeal.Launch
import proofs.«176209_j73254962201099_1_alg».proof.Proof.Gen.KernelIdeal.Points
import proofs.«176209_j73254962201099_1_alg».proof.Proof.Gen.KernelIdeal.Frame
import proofs.«176209_j73254962201099_1_alg».proof.Proof.Gen.ReferenceIdeal
import proofs.«176209_j73254962201099_1_alg».proof.Proof.Gen.Pre_finite_inputs
import proofs.«176209_j73254962201099_1_alg».proof.Proof.Gen.KernelIdeal.Value
import proofs.«176209_j73254962201099_1_alg».proof.Proof.Gen.ReferenceIdeal.Run
import proofs.«176209_j73254962201099_1_alg».proof.Proof.Gen.ReferenceIdeal.Read
import Idealize.ShloMosaic.Adequacy
import Idealize.ShloMosaic.Init

import proofs.«176209_j73254962201099_1_alg».proof.Proof.KernelValue
import proofs.«176209_j73254962201099_1_alg».proof.Proof.RefValue

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the batched function of the (agreeing) arguments. -/
theorem algebraic : Cert.algebraic_KernelIdeal_ReferenceIdeal := by
  intro m ρ m' ρ' _ hagree
  refine ⟨fun c => GraphNorm.batched (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.ref_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
